-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S1x256 : Shape := ⟨2, ![1, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S262144x256 .f32) (main_arg1 : FVec F S1x256 .f32) (main_arg2 : FVec F S1x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S262144x256 : Shape := ⟨2, ![262144, 256]⟩
abbrev S1x256 : Shape := ⟨2, ![1, 256]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S262144x128 : Shape := ⟨2, ![262144, 128]⟩
abbrev S4096x256 : Shape := ⟨2, ![4096, 256]⟩
abbrev S4096x128 : Shape := ⟨2, ![4096, 128]⟩

abbrev nBuf : Space → Nat
  | .hbm => 30
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S1x256, .f32⟩
  | .hbm, ⟨2, _⟩ => ⟨S1x256, .f32⟩
  | .hbm, ⟨3, _⟩ => ⟨S256, .i32⟩
  | .hbm, ⟨4, _⟩ => ⟨S256x1, .i32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256x128, .i32⟩
  | .hbm, ⟨26, _⟩ => ⟨S256x128, .i32⟩
  | .hbm, ⟨27, _⟩ => ⟨S256x128, .i1⟩
  | .hbm, ⟨28, _⟩ => ⟨S256x128, .f32⟩
  | .hbm, ⟨29, _⟩ => ⟨S262144x128, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S1x256, .f32⟩
  | .local _ .vmem, ⟨4, _⟩ => ⟨S256x128, .f32⟩
  | .local _ .vmem, ⟨5, _⟩ => ⟨S4096x128, .f32⟩
  | .local _ .vmem, ⟨6, _⟩ => ⟨S4096x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S256_S256x1_0 : S256.BroadcastsInDim S256x1 (![0] : Fin 1 → Fin S256x1.rank)
  bcast_S128_S1x128_1 : S128.BroadcastsInDim S1x128 (![1] : Fin 1 → Fin S1x128.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  broadcasts_S1x256_S4096x256 : S1x256.Broadcasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S1x256 : Shape := ⟨2, ![1, 256]⟩
abbrev S_ : Shape := ⟨0, ![]⟩
abbrev S262144x128x2 : Shape := ⟨3, ![262144, 128, 2]⟩
abbrev S262144x128 : Shape := ⟨2, ![262144, 128]⟩

abbrev nBuf : Space → Nat
  | .hbm => 19
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S1x256, .f32⟩
  | .hbm, ⟨2, _⟩ => ⟨S1x256, .f32⟩
  | .hbm, ⟨3, _⟩ => ⟨S262144x256, .f32⟩
  | .hbm, ⟨4, _⟩ => ⟨S262144x256, .f32⟩
  | .hbm, ⟨5, _⟩ => ⟨S_, .f32⟩
  | .hbm, ⟨6, _⟩ => ⟨S_, .f32⟩
  | .hbm, ⟨7, _⟩ => ⟨S262144x256, .f32⟩
  | .hbm, ⟨8, _⟩ => ⟨S262144x256, .i1⟩
  | .hbm, ⟨9, _⟩ => ⟨S_, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x128x2, .f32⟩
  | .hbm, ⟨17, _⟩ => ⟨S_, .f32⟩
  | .hbm, ⟨18, _⟩ => ⟨S262144x128, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  shapeCasts_S262144x256_S262144x128x2 : S262144x256.ShapeCasts S262144x128x2
  reducesTo_S262144x128x2_S262144x128_d2 : S262144x128x2.ReducesTo [2] S262144x128
  h_S_ : 0 < S_.numel

variable [Facts₀]

class Facts : Prop extends Facts₀ where

variable [Facts]
-- ==== Proof.Spec.lean ====
/-
  What both programs compute, as one function of the three argument arrays, and the one law that joins their
  two arrangements of it.

  An input entry x with its column's scale k and copy weight c becomes the leaky cell
      cell x k c = (x·k if x·k ≥ 0, else x·k·slope) + x·c,
  and the result at row r, column q is the sum of the two adjacent cells of columns 2q and 2q+1. One program reads
  that sum off a reshape to pairs; the other multiplies the row of 256 cells by the 0/1 matrix whose entry (l, q) is 1
  exactly when l / 2 = q. On the extended reals a product with 0 is 0 and with 1 is the factor itself, whatever the
  factor, so the 256-term sum keeps just the two terms l = 2q and l = 2q + 1 (`sum_pairs`): no finiteness is needed.
-/
import Idealize.ShloMosaic.PureOps.Ideal
import Idealize.ShloMosaic.PureOps.Ideal.Laws
import Idealize.ShloMosaic.Lib.ValueIdx

noncomputable section

namespace Cert.PairSum

open Idealize.ShloMosaic Idealize.ShloMosaic.ValueIdx

/-- The batch of rows, one scale or copy row, and the result. -/
abbrev SX : Shape := ⟨2, ![262144, 256]⟩
abbrev SR : Shape := ⟨2, ![1, 256]⟩
abbrev SO : Shape := ⟨2, ![262144, 128]⟩

/-- The leaky rectifier's slope, the single-precision word nearest one hundredth, as both programs spell it. -/
abbrev slope : EReal := Ideal.ofBits .f32 0x3C23D70A#32

/-- One entry: the scaled input through the leaky rectifier, plus the input times its copy weight. -/
def cell (x k c : EReal) : EReal :=
  Scalar.select (Ideal.cmp .oge (x * k) (Ideal.ofBits .f32 0x00000000#32)) (x * k) (x * k * slope) + x * c

/-- The entry of row `r`, column `l`, of the arrays. -/
def act (X : SX.Idx → EReal) (K C : SR.Idx → EReal) (r : Fin 262144) (l : Fin 256) : EReal :=
  cell (X (ix2 r l)) (K (ix2 (0 : Fin 1) l)) (C (ix2 (0 : Fin 1) l))

/-- The two columns that result column `q` adds. -/
def lo (q : Fin 128) : Fin 256 := ⟨2 * q.val, by have := q.isLt; omega⟩
def hi (q : Fin 128) : Fin 256 := ⟨2 * q.val + 1, by have := q.isLt; omega⟩

/-- The result: each row's adjacent pairs added. -/
def G (X : SX.Idx → EReal) (K C : SR.Idx → EReal) : SO.Idx → EReal :=
  fun i => act X K C (i 0) (lo (i 1)) + act X K C (i 0) (hi (i 1))

/-- A sum of 256 terms each weighted by the indicator of `l / 2 = q` is the two terms of columns `2q` and `2q + 1`. -/
theorem sum_pairs (f P : Fin 256 → EReal) (q : Fin 128)
    (hP : ∀ l : Fin 256, P l = if l.val / 2 = q.val then 1 else 0) :
    ∑ l : Fin 256, f l * P l = f (lo q) + f (hi q) := by
  have h1 : ∀ l : Fin 256, f l * P l = if l.val / 2 = q.val then f l else 0 := by
    intro l; rw [hP l]; split <;> simp
  simp only [h1]
  rw [← Finset.sum_filter]
  have hset : (Finset.univ.filter fun l : Fin 256 => l.val / 2 = q.val) = {lo q, hi q} := by
    ext l
    simp only [Finset.mem_filter, Finset.mem_univ, true_and, Finset.mem_insert, Finset.mem_singleton, Fin.ext_iff, lo, hi]
    omega
  rw [hset, Finset.sum_pair (by simp [Fin.ext_iff, lo, hi])]

/-- The sum over a pair's two positions, from zero. -/
theorem sum_two (g : Fin 2 → EReal) : (0 : EReal) + ∑ k : Fin 2, g k = g 0 + g 1 := by
  rw [zero_add, Fin.sum_univ_two]

end Cert.PairSum

end
-- ==== Proof.Payload.lean ====
/-
  The body's one store, read at an index of the [4096, 128] block, at the ideal values: the matrix product into a
  zero accumulator is the plain sum over the 256 contracted columns of (left entry) · (right entry); the left entry at
  (p, l) is the leaky cell of the row block's entry with that column's scale and copy weight (the changes of float
  format are the identity, the two row broadcasts read their row), the right entry at (l, q) is the staged matrix's.
-/
import proofs.«101039_j489626271944_1_alg».proof.Proof.Gen.KernelIdeal.Skeleton
import proofs.«101039_j489626271944_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.PairSum

/-- The product's operand indices, axis by axis: rows from the output's row, columns from the output's column, the
    contracted axis from the contraction index. -/
theorem lhs_0 (j : S4096x128.Idx) (k : dot_S4096x256_S256x128_S4096x128_1_0_0_1_n_n.contr.Idx) : (dot_S4096x256_S256x128_S4096x128_1_0_0_1_n_n.lhsIdx j k 0 : ℕ) = j 0 := by
  simp [DotDims.lhsIdx, dot_S4096x256_S256x128_S4096x128_1_0_0_1_n_n]; rfl
theorem lhs_1 (j : S4096x128.Idx) (k : dot_S4096x256_S256x128_S4096x128_1_0_0_1_n_n.contr.Idx) : (dot_S4096x256_S256x128_S4096x128_1_0_0_1_n_n.lhsIdx j k 1 : ℕ) = k ⟨0, by decide⟩ := by
  simp [DotDims.lhsIdx, dot_S4096x256_S256x128_S4096x128_1_0_0_1_n_n]; rfl
theorem rhs_0 (j : S4096x128.Idx) (k : dot_S4096x256_S256x128_S4096x128_1_0_0_1_n_n.contr.Idx) : (dot_S4096x256_S256x128_S4096x128_1_0_0_1_n_n.rhsIdx j k 0 : ℕ) = k ⟨0, by decide⟩ := by
  simp [DotDims.rhsIdx, dot_S4096x256_S256x128_S4096x128_1_0_0_1_n_n]; rfl
theorem rhs_1 (j : S4096x128.Idx) (k : dot_S4096x256_S256x128_S4096x128_1_0_0_1_n_n.contr.Idx) : (dot_S4096x256_S256x128_S4096x128_1_0_0_1_n_n.rhsIdx j k 1 : ℕ) = j 1 := by
  simp [DotDims.rhsIdx, dot_S4096x256_S256x128_S4096x128_1_0_0_1_n_n]; rfl

/-- The contraction's indices are the 256 columns. -/
abbrev cols : dot_S4096x256_S256x128_S4096x128_1_0_0_1_n_n.contr.Idx ≃ Fin 256 := contrEquiv1 dot_S4096x256_S256x128_S4096x128_1_0_0_1_n_n 256 rfl rfl

theorem lhs_at (p : Fin 4096) (q : Fin 128) (l : Fin 256) : dot_S4096x256_S256x128_S4096x128_1_0_0_1_n_n.lhsIdx (ix2 p q) (cols.symm l) = ix2 p l := by
  funext a
  match a with
  | ⟨0, _⟩ => exact Fin.ext (lhs_0 _ _)
  | ⟨1, _⟩ => exact Fin.ext ((lhs_1 _ _).trans (contrEquiv1_symm_val _ 256 rfl rfl l))

theorem rhs_at (p : Fin 4096) (q : Fin 128) (l : Fin 256) : dot_S4096x256_S256x128_S4096x128_1_0_0_1_n_n.rhsIdx (ix2 p q) (cols.symm l) = ix2 l q := by
  funext a
  match a with
  | ⟨0, _⟩ => exact Fin.ext ((rhs_0 _ _).trans (contrEquiv1_symm_val _ 256 rfl rfl l))
  | ⟨1, _⟩ => exact Fin.ext (rhs_1 _ _)

/-- A [1, 256] row broadcast over the block's rows reads the row at the column. -/
theorem row_apply (v : Vec Ideal S1x256 .f32) (p : Fin 4096) (l : Fin 256) :
    broadcastTo S4096x256 v broadcasts_S1x256_S4096x256 (ix2 p l) = v (ix2 (0 : Fin 1) l) :=
  broadcastTo_apply v _ (ix2 p l) (ix2 (0 : Fin 1) l) (fun a => by
    match a with
    | ⟨0, _⟩ => rfl
    | ⟨1, _⟩ => rfl)

/-- The store's value at row `p`, column `q` of the block. -/
theorem pay_apply (x0 : Vec Ideal S4096x256 .f32) (x1 x2 : Vec Ideal S1x256 .f32) (x3 : Vec Ideal S256x128 .f32)
    (p : Fin 4096) (q : Fin 128) :
    k0_pay1 x0 x1 x2 x3 (ix2 p q)
      = ∑ l : Fin 256, cell (x0 (ix2 p l)) (x1 (ix2 (0 : Fin 1) l)) (x2 (ix2 (0 : Fin 1) l)) * x3 (ix2 l q) := by
  unfold k0_pay1
  refine (Ideal.matmul_constant_zero_apply dot_S4096x256_S256x128_S4096x128_1_0_0_1_n_n none _ _ _).trans ?_
  rw [← Equiv.sum_comp cols.symm]
  refine Finset.sum_congr rfl fun l _ => ?_
  rw [lhs_at, rhs_at]
  simp only [truncf_apply, addf_apply, select_apply, cmpf_apply, mulf_apply, broadcast_apply]
  rw [row_apply x1 p l, row_apply x2 p l, shapeCast_self]
  rfl

end Cert.KernelIdeal.Payload

end
-- ==== Proof.PairMatrix.lean ====
/-
  The 0/1 matrix the region's fourth window stages: the host prefix builds it from two iotas. Row index `l` is
  floor-divided by two the way the integer `//` lowers (truncated quotient, lowered by one when the signs differ and
  the remainder is not zero: for 0 ≤ l < 256 neither happens with a non-zero remainder, so it is l / 2), compared for
  equality with the column index `q`, and the bit widened to a float: entry (l, q) is 1 when l / 2 = q and 0 otherwise.
-/
import proofs.«101039_j489626271944_1_alg».proof.Proof.Gen.KernelIdeal.Frame
import Idealize.ShloMosaic.Lib.StableHlo.Run
import Idealize.ShloMosaic.Lib.StableHlo.Predicate
import Idealize.ShloMosaic.Lib.Pipeline.Value
import Idealize.ShloMosaic.Lib.IdealHost

noncomputable section

namespace Cert.KernelIdeal.PairMatrix

open Cert.KernelIdeal Cert.KernelIdeal.Gen Idealize.ShloMosaic Idealize.ShloMosaic.ValueIdx Idealize.ShloMosaic.TcCoe Idealize.SL.Sem

variable {F : FTy → Type} [FloatOps F]

/-- The row indices 0 … 255 as a column, the divisor two, and the column indices 0 … 127 as a row. -/
def rowIdx : IVec S256x1 32 := broadcastInDim S256x1 ![0] bcast_S256_S256x1_0 (iotaInDim S256 32 0)
def two : IVec S_ 32 := constantI S_ 32 2#32
def colIdx : IVec S1x128 32 := broadcastInDim S1x128 ![1] bcast_S128_S1x128_1 (iotaInDim S128 32 0)

/-- The row indices floor-divided by two, as the host spells integer floor division. -/
def halves : IVec S256x1 32 :=
  select
    (andi (cmpi .ne (signi rowIdx) (broadcastInDim S256x1 ![] bcast_S_S256x1 (signi two)))
      (cmpi .ne (Host.remsi rowIdx (broadcastInDim S256x1 ![] bcast_S_S256x1 two))
        (broadcastInDim S256x1 ![] bcast_S_S256x1 (constantI S_ 32 0#32))))
    (subi (Host.divsi rowIdx (broadcastInDim S256x1 ![] bcast_S_S256x1 two))
      (broadcastInDim S256x1 ![] bcast_S_S256x1 (constantI S_ 32 1#32)))
    (Host.divsi rowIdx (broadcastInDim S256x1 ![] bcast_S_S256x1 two))

/-- The matrix: the equality bit of the halved row index and the column index, as a float. -/
def pairMat : FVec F S256x128 .f32 :=
  uitofp .f32 (cmpi .eq (broadcastInDim S256x128 ![0, 1] bcast_S256x1_S256x128_0_1 halves)
    (broadcastInDim S256x128 ![0, 1] bcast_S1x128_S256x128_0_1 colIdx))

variable (m : (ℓ : Loc nD τ sig) → Buf (Elt F) ℓ)

/-- The region finds the matrix's buffer at that term, whatever the launch memory. -/
theorem V_pair (c : Dev nD) : (V m c main_v8 : FVec F S256x128 .f32) = pairMat := by
  dsimp only [V]
  simp only [hostOps0, hostOps0_1, hostOps0_2, List.flatten_cons, List.flatten_nil, List.append_nil, List.cons_append,
    List.nil_append]
  after_results_simp
  rfl

/-- A word's sign: 0, 1 or -1. -/
def sgn (w : BitVec 32) : BitVec 32 := if w = 0 then 0 else if w.msb then -1 else 1

/-- Floor division by two of one word, the same spelling. -/
def halfW (w : BitVec 32) : BitVec 32 :=
  Scalar.select
    (IntOp.andi (IntOp.cmpi .ne (sgn w) (sgn 2#32)) (IntOp.cmpi .ne (IntOp.remsi .host w 2#32) 0#32))
    (IntOp.subi (IntOp.divsi .host w 2#32) 1#32)
    (IntOp.divsi .host w 2#32)

theorem halves_word (i : S256x1.Idx) : halves i = halfW (rowIdx i) := rfl

/-- On the 256 row indices the host's floor division by two is the natural-number quotient. -/
theorem halfW_small : ∀ l : Fin 256, halfW (BitVec.ofNat 32 l.val) = BitVec.ofNat 32 (l.val / 2) := by decide

theorem rowIdx_apply (l : Fin 256) : rowIdx (ix2 l (0 : Fin 1)) = BitVec.ofNat 32 l.val := by
  unfold rowIdx
  rw [broadcastInDim_apply _ _ _ (ix2 l (0 : Fin 1)) (ix1 l) (fun a => by match a with | ⟨0, _⟩ => rfl)]
  rfl

theorem colIdx_apply (q : Fin 128) : colIdx (ix2 (0 : Fin 1) q) = BitVec.ofNat 32 q.val := by
  unfold colIdx
  rw [broadcastInDim_apply _ _ _ (ix2 (0 : Fin 1) q) (ix1 q) (fun a => by match a with | ⟨0, _⟩ => rfl)]
  rfl

/-- Two small words are equal exactly when their values are. -/
theorem ofNat_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- The matrix at row `l`, column `q`, at the ideal values: the indicator of `l / 2 = q`. -/
theorem pairMat_apply (l : Fin 256) (q : Fin 128) :
    pairMat (F := Ideal) (ix2 l q) = if l.val / 2 = q.val then (1 : EReal) else 0 := by
  unfold pairMat
  show (((IntOp.cmpi .eq (broadcastInDim S256x128 ![0, 1] bcast_S256x1_S256x128_0_1 halves (ix2 l q))
    (broadcastInDim S256x128 ![0, 1] bcast_S1x128_S256x128_0_1 colIdx (ix2 l q))).toNat : ℝ) : EReal) = _
  rw [broadcastInDim_apply _ _ halves (ix2 l q) (ix2 l (0 : Fin 1)) (fun a => by
        match a with
        | ⟨0, _⟩ => rfl
        | ⟨1, _⟩ => rfl),
    broadcastInDim_apply _ _ colIdx (ix2 l q) (ix2 (0 : Fin 1) q) (fun a => by
        match a with
        | ⟨0, _⟩ => rfl
        | ⟨1, _⟩ => rfl),
    halves_word, rowIdx_apply, halfW_small, colIdx_apply]
  by_cases h : l.val / 2 = q.val
  · rw [if_pos h, StableHlo.Predicate.cmpi_eq_iff.mpr (by rw [h])]
    norm_num
  · rw [if_neg h, eq_zero_of_ne_one (fun hc => h ((ofNat_eq_iff _ _ (by have := l.isLt; omega) (by have := q.isLt; omega)).mp
      (StableHlo.Predicate.cmpi_eq_iff.mp hc)))]
    norm_num

end Cert.KernelIdeal.PairMatrix

end
-- ==== Proof.Blocks.lean ====
/-
  From blocks to the whole array. Grid point `t` of the 64 stages rows 4096·t … 4096·t + 4095 of the batch, the whole
  scale row, the whole copy row and the whole 0/1 matrix, and writes back rows 4096·t … of the result. What it writes at
  block row `p`, column `q` is the 256-term product sum of that row's cells with the matrix's column `q`, which is
  the two adjacent cells added: the entry of the pair-sum function `G` at row 4096·t + p. The 64 blocks tile the
  result (row `r` lies in block `r / 4096`), so after the run the result array is `G` of the argument arrays.
-/
import proofs.«101039_j489626271944_1_alg».proof.Proof.Gen.KernelIdeal.Value
import proofs.«101039_j489626271944_1_alg».proof.Proof.Payload
import proofs.«101039_j489626271944_1_alg».proof.Proof.PairMatrix
import proofs.«101039_j489626271944_1_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx Cert.PairSum
open Idealize.ShloMosaic.Pipeline (Dat)

/-- One point's store against the arrays: if the row block is rows `4096·tv + p` of `X`, the two rows are `K` and
    `C`, and the staged matrix is the pair indicator, the stored value at (p, q) is `G` at (4096·tv + p, q). -/
theorem point_eq (X : SX.Idx → EReal) (K C : SR.Idx → EReal)
    (x0 : Vec Ideal S4096x256 .f32) (x1 x2 : Vec Ideal S1x256 .f32) (x3 : Vec Ideal S256x128 .f32)
    (p : Fin 4096) (q : Fin 128) (r : Fin 262144)
    (h0 : ∀ l : Fin 256, x0 (ix2 p l) = X (ix2 r l))
    (h1 : ∀ l : Fin 256, x1 (ix2 (0 : Fin 1) l) = K (ix2 (0 : Fin 1) l))
    (h2 : ∀ l : Fin 256, x2 (ix2 (0 : Fin 1) l) = C (ix2 (0 : Fin 1) l))
    (h3 : ∀ l : Fin 256, x3 (ix2 l q) = if l.val / 2 = q.val then (1 : EReal) else 0) :
    k0_pay1 x0 x1 x2 x3 (ix2 p q) = G X K C (ix2 r q) := by
  rw [Payload.pay_apply]
  simp only [h0, h1, h2]
  exact sum_pairs (fun l => cell (X (ix2 r l)) (K (ix2 (0 : Fin 1) l)) (C (ix2 (0 : Fin 1) l))) (fun l => x3 (ix2 l q)) q h3

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the batch and the result move with the point, the three resident operands
    stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point's row `p` is row `4096·t + p` of the batch. -/
theorem row_lt (t : Fin cfg0.N) (p : Fin 4096) : t.val * 4096 + p.val < 262144 := by
  have h : t.val < 64 := lt_of_lt_of_eq t.isLt N_0
  have := p.isLt; omega

/-- The batch window's block at point `t`, read at (p, l). -/
theorem blk0 (c : Dev nD) (t : Fin cfg0.N) (p : Fin 4096) (l : Fin 256) :
    iblk m c 0 t (ix2 p l) = V m c main_arg0 (ix2 ⟨t.val * 4096 + p.val, row_lt t p⟩ l) := by
  obtain ⟨e00, e01, -⟩ := idx_facts t
  show V m c main_arg0 (((cfg0.win 0).blk t).view.emb (ix2 p l)) = V m c main_arg0 _
  refine congrArg (V m c main_arg0) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * l.val = l.val; omega

/-- The scale row's block is the row. -/
theorem blk1 (c : Dev nD) (t : Fin cfg0.N) (l : Fin 256) :
    iblk m c 1 t (ix2 (0 : Fin 1) l) = V m c main_arg1 (ix2 (0 : Fin 1) l) := by
  obtain ⟨-, -, e10, e11, -⟩ := idx_facts t
  show V m c main_arg1 (((cfg0.win 1).blk t).view.emb (ix2 (0 : Fin 1) l)) = V m c main_arg1 _
  refine congrArg (V m c main_arg1) (funext fun a => Fin.ext ?_)
  match a with
  | ⟨0, _⟩ => show win0_1.index t (0 : Fin 2) * 1 + 1 * 0 = 0; omega
  | ⟨1, _⟩ => show win0_1.index t (1 : Fin 2) * 256 + 1 * l.val = l.val; omega

/-- The copy row's block is the row. -/
theorem blk2 (c : Dev nD) (t : Fin cfg0.N) (l : Fin 256) :
    iblk m c 2 t (ix2 (0 : Fin 1) l) = V m c main_arg2 (ix2 (0 : Fin 1) l) := by
  obtain ⟨-, -, -, -, e20, e21, -⟩ := idx_facts t
  show V m c main_arg2 (((cfg0.win 2).blk t).view.emb (ix2 (0 : Fin 1) l)) = V m c main_arg2 _
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 256 + 1 * l.val = l.val; omega

/-- The matrix window's block is the matrix the host prefix built: the pair indicator. -/
theorem blk3 (c : Dev nD) (t : Fin cfg0.N) (l : Fin 256) (q : Fin 128) :
    iblk m c 3 t (ix2 l q) = if l.val / 2 = q.val then (1 : EReal) else 0 := by
  obtain ⟨-, -, -, -, -, -, e30, e31, -⟩ := idx_facts t
  have e : iblk m c 3 t (ix2 l q) = V m c main_v8 (ix2 l q) := by
    show V m c main_v8 (((cfg0.win 3).blk t).view.emb (ix2 l q)) = V m c main_v8 _
    refine congrArg (V m c main_v8) (funext fun a => Fin.ext ?_)
    match a with
    | ⟨0, _⟩ => show win0_3.index t (0 : Fin 2) * 256 + 1 * l.val = l.val; omega
    | ⟨1, _⟩ => show win0_3.index t (1 : Fin 2) * 128 + 1 * q.val = q.val; omega
  rw [e, PairMatrix.V_pair m c]
  exact PairMatrix.pairMat_apply l q

/-- The result window's block at point `t` sends (p, q) to row `4096·t + p`, column `q`. -/
theorem emb4 (t : Fin cfg0.N) (p : Fin 4096) (q : Fin 128) :
    ((cfg0.win 4).blk t).view.emb (ix2 p q) = ix2 ⟨t.val * 4096 + p.val, row_lt t p⟩ q := by
  obtain ⟨-, -, -, -, -, -, -, -, e40, e41⟩ := idx_facts t
  funext a; apply Fin.ext
  match a with
  | ⟨0, _⟩ => show win0_4.index t (0 : Fin 2) * 4096 + 1 * p.val = t.val * 4096 + p.val; omega
  | ⟨1, _⟩ => show win0_4.index t (1 : Fin 2) * 128 + 1 * q.val = q.val; omega

/-- The body's store at point `t`, at (p, q), is `G` of the arrays at the array index of that block entry. -/
theorem stored_at (c : Dev nD) (t : Fin cfg0.N) (p : Fin 4096) (q : Fin 128) :
    k0_pay1 (iblk m c 0 t) (iblk m c 1 t) (iblk m c 2 t) (iblk m c 3 t) (ix2 p q)
      = G (V m c main_arg0) (V m c main_arg1) (V m c main_arg2) (((cfg0.win 4).blk t).view.emb (ix2 p q)) := by
  rw [emb4 t p q]
  exact point_eq (V m c main_arg0) (V m c main_arg1) (V m c main_arg2) (iblk m c 0 t) (iblk m c 1 t) (iblk m c 2 t)
    (iblk m c 3 t) p q ⟨t.val * 4096 + p.val, row_lt t p⟩
    (fun l => blk0 m c t p l) (fun l => blk1 m c t l) (fun l => blk2 m c t l) (fun l => blk3 m c t l q)

/-- What point `t` writes back is block `t` of `G` of the arrays as the region finds them. -/
theorem flushed_eq (c : Dev nD) (t : Fin cfg0.N) :
    (dats m 0 c).flushed 4 t
      = ((cfg0.win 4).blk t).view.read (Elt Ideal) (G (V m c main_arg0) (V m c main_arg1) (V m c main_arg2)) := by
  rw [Value.flushed4]
  unfold out0_4
  rw [View.canon_unit_zero hz]
  simp only [View.ld_unit_zero (S := S4096x256) hz, View.ld_unit_zero (S := S1x256) hz, View.ld_unit_zero (S := S256x128) hz]
  funext j
  obtain ⟨p, q, rfl⟩ : ∃ (p : Fin 4096) (q : Fin 128), j = ix2 p q := ⟨j 0, j 1, eq_ix2 j⟩
  exact stored_at m c t p q

/-- An index of the result is in point `t`'s block iff each coordinate is in the block's range on its axis. -/
theorem mem_blk (t : Fin cfg0.N) (i : S262144x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v9).slice (win0_4.rect t)).set ↔ _
  rw [View.set_slice_whole, Rect.mem_set_unit]
  exact Iff.rfl

/-- Every index of the result lies in the block of the point `row / 4096`. -/
theorem cover (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have ht : (i 0).val / 4096 < cfg0.N := by rw [show cfg0.N = 64 from N_0]; omega
  refine ⟨⟨(i 0).val / 4096, ht⟩, flush0_4 _, ?_⟩
  rw [mem_blk]
  obtain ⟨-, -, -, -, -, -, -, -, e40, e41⟩ := idx_facts ⟨(i 0).val / 4096, ht⟩
  intro a
  match a with
  | ⟨0, _⟩ =>
    show win0_4.index ⟨(i 0).val / 4096, ht⟩ (0 : Fin 2) * 4096 ≤ (i 0).val
      ∧ (i 0).val < win0_4.index ⟨(i 0).val / 4096, ht⟩ (0 : Fin 2) * 4096 + 4096
    rw [e40]; show (i 0).val / 4096 * 4096 ≤ (i 0).val ∧ (i 0).val < (i 0).val / 4096 * 4096 + 4096; omega
  | ⟨1, _⟩ =>
    show win0_4.index ⟨(i 0).val / 4096, ht⟩ (1 : Fin 2) * 128 ≤ (i 1).val
      ∧ (i 1).val < win0_4.index ⟨(i 0).val / 4096, ht⟩ (1 : Fin 2) * 128 + 128
    rw [e41]; omega

/-- The result array after the run is `G` of the argument arrays as launched. -/
theorem final (c : Dev nD) :
    (dats m 0 c).arrAt 4 cfg0.N
      = G (m ((c : Thread nD τ).loc main_arg0)) (m ((c : Thread nD τ).loc main_arg1)) (m ((c : Thread nD τ).loc main_arg2)) :=
  ((dats m 0 c).arrAt_eq_of_cover 4 (G (V m c main_arg0) (V m c main_arg1) (V m c main_arg2))
    (fun t _ => flushed_eq m c t) cover).trans (by rw [V_main_arg0, V_main_arg1, V_main_arg2])

/-- The run with the result named: every weakly fair execution terminates with the result at `G` of the arguments,
    which end unchanged. -/
theorem run : θ_run defs (onTc (τ := τ) (main (F := Ideal))) ⟨m, fun _ => 0, ρ⟩ fun r => ∀ c : Dev nD,
      r.2.mem ((c : Thread nD τ).loc main_v9)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRun.lean ====
/-
  The reference program's @main as the straight line of its sixteen host operations — the rectified-linear call and
  the select it makes written out at the call site over the call's own buffers — and its run read back: every weakly
  fair execution terminates with every buffer at the operations' fold over the launch contents.
-/
import proofs.«101039_j489626271944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the scale row broadcast over the batch and multiplied in; the slope; the call's
    six (zero, its broadcast, the comparison, the slope converted and broadcast, the scaled product) and the select;
    the copy row broadcast and multiplied in; the sum of the two; the pairing reshape; zero; the sum over each pair. -/
abbrev ops : List (HloOp τ sig (Elt F)) :=
  [ unary main_arg1 main_v0 (broadcastInDim S262144x256 ![0, 1] bcast_S1x256_S262144x256_0_1 : (⟨S1x256, .f32⟩ : BufTy).Contents (Elt F) → (⟨S262144x256, .f32⟩ : BufTy).Contents (Elt F)),
    binary main_arg0 main_v0 main_v1 (mulf : (⟨S262144x256, .f32⟩ : BufTy).Contents (Elt F) → (⟨S262144x256, .f32⟩ : BufTy).Contents (Elt F) → (⟨S262144x256, .f32⟩ : BufTy).Contents (Elt F)),
    nullary main_cst (constant S_ .f32 0x3C23D70A#32),
    TRef.nullary main_call0.cst (constant S_ .f32 0x00000000#32),
    TRef.unary main_call0.cst main_call0.v0 (broadcastInDim S262144x256 ![] bcast_S_S262144x256),
    TRef.binary (.of main_v1) main_call0.v0 main_call0.v1 (cmpf .oge),
    TRef.unary (.of main_cst) main_call0.v2 id,
    TRef.unary main_call0.v2 main_call0.v3 (broadcastInDim S262144x256 ![] bcast_S_S262144x256),
    TRef.binary main_call0.v3 (.of main_v1) main_call0.v4 mulf,
    TRef.ternary main_call0.v1 (.of main_v1) main_call0.v4 main_call0.call0.v0 select,
    unary main_arg2 main_v3 (broadcastInDim S262144x256 ![0, 1] bcast_S1x256_S262144x256_0_1 : (⟨S1x256, .f32⟩ : BufTy).Contents (Elt F) → (⟨S262144x256, .f32⟩ : BufTy).Contents (Elt F)),
    binary main_arg0 main_v3 main_v4 (mulf : (⟨S262144x256, .f32⟩ : BufTy).Contents (Elt F) → (⟨S262144x256, .f32⟩ : BufTy).Contents (Elt F) → (⟨S262144x256, .f32⟩ : BufTy).Contents (Elt F)),
    binary main_v2 main_v4 main_v5 (addf : (⟨S262144x256, .f32⟩ : BufTy).Contents (Elt F) → (⟨S262144x256, .f32⟩ : BufTy).Contents (Elt F) → (⟨S262144x256, .f32⟩ : BufTy).Contents (Elt F)),
    reshape main_v5 main_v6 rfl shapeCasts_S262144x256_S262144x128x2,
    nullary main_cst_0 (constant S_ .f32 0x00000000#32),
    binary main_v6 main_cst_0 main_v7 ((fun x v => Host.reduceAdd x v reducesTo_S262144x128x2_S262144x128_d2 h_S_) : (⟨S262144x128x2, .f32⟩ : BufTy).Contents (Elt F) → (⟨S_, .f32⟩ : BufTy).Contents (Elt F) → (⟨S262144x128, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., binary_bufs_sub ..,
    binary_bufs_sub .., reshape_bufs_sub .., nullary_bufs_sub .., binary_bufs_sub ..⟩

/-- From any memory with zero counters every weakly fair execution of @main terminates, every buffer at the
    operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The result as one term of the three argument arrays: the rows scaled, passed through the leaky rectifier, the
    copy product added, reshaped to pairs and each pair summed from zero. -/
def out (X : FVec F S262144x256 .f32) (K C : FVec F S1x256 .f32) : FVec F S262144x128 .f32 :=
  Host.reduceAdd
    (shapeCast S262144x128x2
      (addf
        (select
          (cmpf .oge (mulf X (broadcastInDim S262144x256 ![0, 1] bcast_S1x256_S262144x256_0_1 K))
            (broadcastInDim S262144x256 ![] bcast_S_S262144x256 (constant S_ .f32 0x00000000#32)))
          (mulf X (broadcastInDim S262144x256 ![0, 1] bcast_S1x256_S262144x256_0_1 K))
          (mulf (broadcastInDim S262144x256 ![] bcast_S_S262144x256 (constant S_ .f32 0x3C23D70A#32))
            (mulf X (broadcastInDim S262144x256 ![0, 1] bcast_S1x256_S262144x256_0_1 K))))
        (mulf X (broadcastInDim S262144x256 ![0, 1] bcast_S1x256_S262144x256_0_1 C)))
      shapeCasts_S262144x256_S262144x128x2)
    (constant S_ .f32 0x00000000#32) reducesTo_S262144x128x2_S262144x128_d2 h_S_

/-- The operations' fold at the result buffer is that term: the typed references' casts at these literal buffers are
    the identity. -/
theorem out_eq (V : Valuation τ sig (Elt F)) :
    after ops V (main_v7 : DevRef τ sig)
      = out (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- The run with the result named: the result buffer ends at `out` of the launch contents of the arguments, which
    end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (out_eq _),
      (h c main_arg0).trans (arg0_eq _), (h c main_arg1).trans (arg1_eq _), (h c main_arg2).trans (arg2_eq _)⟩)
    (run_all m ρ)

end Cert.ReferenceIdeal.RefRun

end
-- ==== Proof.RefValue.lean ====
/-
  The reference's result term, read at the ideal values, is the pair-sum function `G` of the argument arrays:
  the two row broadcasts read the row's column, the scalar broadcasts read the scalar, the reshape to pairs sends
  (r, q, k) to column 2q + k of row r (equal row-major positions), and the sum over the pair axis from zero is the
  two cells added. The slope multiplies from the left here and from the right in `cell`: commutativity.
-/
import proofs.«101039_j489626271944_1_alg».proof.Proof.RefRun
import proofs.«101039_j489626271944_1_alg».proof.Proof.Spec
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx Cert.PairSum

/-- Dropping the pair axis of [262144, 128, 2] leaves [262144, 128]. -/
theorem reduces : S262144x128x2.Reduces [2] S262144x128 := by decide

/-- A [1, 256] row broadcast over the batch reads the row at the column. -/
theorem row_apply (K : FVec Ideal S1x256 .f32) (r : Fin 262144) (l : Fin 256) :
    broadcastInDim S262144x256 ![0, 1] bcast_S1x256_S262144x256_0_1 K (ix2 r l) = K (ix2 (0 : Fin 1) l) :=
  broadcastInDim_apply _ _ K (ix2 r l) (ix2 (0 : Fin 1) l) (fun a => by
    match a with
    | ⟨0, _⟩ => rfl
    | ⟨1, _⟩ => rfl)

/-- The array before pairing, at row `r` and column `l`, is the cell of the three entries there. -/
theorem pre_apply (X : FVec Ideal S262144x256 .f32) (K C : FVec Ideal S1x256 .f32) (r : Fin 262144) (l : Fin 256) :
    addf
        (select
          (cmpf .oge (mulf X (broadcastInDim S262144x256 ![0, 1] bcast_S1x256_S262144x256_0_1 K))
            (broadcastInDim S262144x256 ![] bcast_S_S262144x256 (constant S_ .f32 0x00000000#32)))
          (mulf X (broadcastInDim S262144x256 ![0, 1] bcast_S1x256_S262144x256_0_1 K))
          (mulf (broadcastInDim S262144x256 ![] bcast_S_S262144x256 (constant S_ .f32 0x3C23D70A#32))
            (mulf X (broadcastInDim S262144x256 ![0, 1] bcast_S1x256_S262144x256_0_1 K))))
        (mulf X (broadcastInDim S262144x256 ![0, 1] bcast_S1x256_S262144x256_0_1 C)) (ix2 r l)
      = act X K C r l := by
  simp only [addf_apply, select_apply, cmpf_apply, mulf_apply]
  rw [row_apply K r l, row_apply C r l, broadcastInDim_scalar_apply, broadcastInDim_scalar_apply]
  unfold act cell
  rw [mul_comm (constant (F := Ideal) S_ .f32 0x3C23D70A#32 ix0)]
  rfl

/-- The reshape to pairs at (r, q, k) reads column `2q + k` of row `r`: the two row-major positions agree. -/
theorem pair_apply (Y : S262144x256.Idx → EReal) (r : Fin 262144) (q : Fin 128) (k : Fin 2) (l : Fin 256)
    (hl : l.val = 2 * q.val + k.val) :
    shapeCast S262144x128x2 Y shapeCasts_S262144x256_S262144x128x2 (reduces.lift (ix2 r q) k) = Y (ix2 r l) := by
  refine shapeCast_apply Y _ _ (ix2 r l) ?_
  rw [Shape.rowMajor_val_two, Shape.rowMajor_val_three]
  show r.val * 256 + l.val = (r.val * 128 + q.val) * 2 + k.val
  omega

/-- The reference's result at row `r`, column `q`. -/
theorem out_apply (X : FVec Ideal S262144x256 .f32) (K C : FVec Ideal S1x256 .f32) (r : Fin 262144) (q : Fin 128) :
    out (F := Ideal) X K C (ix2 r q) = G X K C (ix2 r q) := by
  unfold out
  rw [hostReduceAdd_apply, Ideal.hostReduceAdd_single _ reduces]
  show Ideal.ofBits .f32 0x00000000#32 + _ = _
  rw [Ideal.ofBits_zero_f32]
  refine (sum_two _).trans ?_
  rw [pair_apply _ r q 0 (lo q) rfl, pair_apply _ r q 1 (hi q) rfl, pre_apply, pre_apply]
  rfl

/-- The reference's result is `G` of the arguments. -/
theorem out_eq_G (X : FVec Ideal S262144x256 .f32) (K C : FVec Ideal S1x256 .f32) :
    out (F := Ideal) X K C = G X K C := by
  funext i
  obtain ⟨r, q, rfl⟩ : ∃ (r : Fin 262144) (q : Fin 128), i = ix2 r q := ⟨i 0, i 1, eq_ix2 i⟩
  exact out_apply X K C r q

end Cert.ReferenceIdeal.RefValue

end
-- ==== Proof.lean ====
/-
  The kernel and its reference compute one function of the batch X [262144, 256], the scale row K and the copy row C
  [1, 256]: with cell(x, k, c) = (x·k if x·k ≥ 0, else x·k·slope) + x·c, the result at row r, column q is
  cell(X[r, 2q], K[2q], C[2q]) + cell(X[r, 2q+1], K[2q+1], C[2q+1]).

  The reference reshapes each row of cells to 128 pairs and sums each pair from zero. The kernel, 4096 rows per grid
  point, multiplies each row of 256 cells by the 0/1 matrix whose entry (l, q) is 1 exactly when l / 2 = q, built on
  the host from two iotas and an integer floor division. Read on the extended reals the changes of float format are
  the identity and the product into a zero accumulator is the exact 256-term sum; a term with weight 0 is 0 and one
  with weight 1 is its cell, whatever the cell's value, so the sum is the two adjacent cells added. The reference puts
  the slope on the left of its product and the kernel on the right: commutativity. No step needs the inputs finite, so
  the precondition is never opened.

  The frames of the two kernel programs are the generated ones; the reference's frame is its run, read off the list of
  its sixteen host operations, with the result dropped. The idealized kernel is the kernel's own text read at the ideal
  values, no operation rewritten, so `preserves` is `True`.
-/
import proofs.«101039_j489626271944_1_alg».proof.Defs
import proofs.«101039_j489626271944_1_alg».proof.Proof.Gen.Kernel
import proofs.«101039_j489626271944_1_alg».proof.Proof.Gen.Kernel.Skeleton
import proofs.«101039_j489626271944_1_alg».proof.Proof.Gen.Kernel.Launch
import proofs.«101039_j489626271944_1_alg».proof.Proof.Gen.Kernel.Points
import proofs.«101039_j489626271944_1_alg».proof.Proof.Gen.Kernel.Frame
import proofs.«101039_j489626271944_1_alg».proof.Proof.Gen.KernelIdeal
import proofs.«101039_j489626271944_1_alg».proof.Proof.Gen.KernelIdeal.Skeleton
import proofs.«101039_j489626271944_1_alg».proof.Proof.Gen.KernelIdeal.Launch
import proofs.«101039_j489626271944_1_alg».proof.Proof.Gen.KernelIdeal.Points
import proofs.«101039_j489626271944_1_alg».proof.Proof.Gen.KernelIdeal.Frame
import proofs.«101039_j489626271944_1_alg».proof.Proof.Gen.KernelIdeal.Value
import proofs.«101039_j489626271944_1_alg».proof.Proof.Gen.ReferenceIdeal
import proofs.«101039_j489626271944_1_alg».proof.Proof.Gen.Pre_finite_inputs
import proofs.«101039_j489626271944_1_alg».proof.Proof.Blocks
import proofs.«101039_j489626271944_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the three arguments both programs end with the pair-sum function `G` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
